-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x32 : Shape := ⟨3, ![32, 2048, 32]⟩
abbrev S64x32 : Shape := ⟨2, ![64, 32]⟩
abbrev S64x10 : Shape := ⟨2, ![64, 10]⟩
abbrev S10 : Shape := ⟨1, ![10]⟩
abbrev S_ : Shape := ⟨0, ![]⟩

class Facts : Prop where
  bcast_S_S32x2048x32 : S_.BroadcastsInDim S32x2048x32 (![] : Fin 0 → Fin S32x2048x32.rank)
  reducesTo_S32x2048x32_S_d0_1_2 : S32x2048x32.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : FVec F S32x2048x32 .f32) (main_arg1 : FVec F S64x32 .f32) (main_arg2 : FVec F S64x10 .f32) (main_arg3 : FVec F S10 .f32) : IVec S_ 1 :=
  let main_v0 : FVec F S32x2048x32 .f32 := Host.absf main_arg0
  let main_cst : FVec F S_ .f32 := constant S_ .f32 0x7F800000#32
  let main_v1 : FVec F S32x2048x32 .f32 := broadcastInDim S32x2048x32 ![] bcast_S_S32x2048x32 main_cst
  let main_v2 : IVec S32x2048x32 1 := cmpf .olt main_v0 main_v1
  let main_c : IVec S_ 1 := constantI S_ 1 1#1
  let main_v3 : IVec S_ 1 := (fun x v => Host.reduce IntOp.andi x v reducesTo_S32x2048x32_S_d0_1_2 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x10 .f32 := Host.absf main_arg2
  let main_cst_2 : FVec F S_ .f32 := constant S_ .f32 0x7F800000#32
  let main_v10 : FVec F S64x10 .f32 := broadcastInDim S64x10 ![] bcast_S_S64x10 main_cst_2
  let main_v11 : IVec S64x10 1 := cmpf .olt main_v9 main_v10
  let main_c_3 : IVec S_ 1 := constantI S_ 1 1#1
  let main_v12 : IVec S_ 1 := (fun x v => Host.reduce IntOp.andi x v reducesTo_S64x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S32x2048x32 : Shape := ⟨3, ![32, 2048, 32]⟩
abbrev S64x32 : Shape := ⟨2, ![64, 32]⟩
abbrev S64x10 : Shape := ⟨2, ![64, 10]⟩
abbrev S10 : Shape := ⟨1, ![10]⟩
abbrev S32x10 : Shape := ⟨2, ![32, 10]⟩
abbrev S16x512x32 : Shape := ⟨3, ![16, 512, 32]⟩
abbrev S16x10 : Shape := ⟨2, ![16, 10]⟩
abbrev S16x64 : Shape := ⟨2, ![16, 64]⟩
abbrev S16x512 : Shape := ⟨2, ![16, 512]⟩
abbrev S64 : Shape := ⟨1, ![64]⟩
abbrev S8192x32 : Shape := ⟨2, ![8192, 32]⟩
abbrev S8192x64 : Shape := ⟨2, ![8192, 64]⟩
abbrev S16x512x64 : Shape := ⟨3, ![16, 512, 64]⟩
abbrev S16x512x1 : Shape := ⟨3, ![16, 512, 1]⟩
abbrev S1x1x64 : Shape := ⟨3, ![1, 1, 64]⟩
abbrev S1x10 : Shape := ⟨2, ![1, 10]⟩

abbrev nBuf : Space → Nat
  | .hbm => 5
  | .vmem => 8
  | .smem => 0
  | _ => 0

abbrev bufTy : (tb : Table) → Fin (tcTables nBuf tb) → BufTy
  | .hbm, ⟨0, _⟩ => ⟨S32x2048x32, .f32⟩
  | .hbm, ⟨1, _⟩ => ⟨S64x32, .f32⟩
  | .hbm, ⟨2, _⟩ => ⟨S64x10, .f32⟩
  | .hbm, ⟨3, _⟩ => ⟨S10, .f32⟩
  | .hbm, ⟨4, _⟩ => ⟨S32x10, .f32⟩
  | .local _ .vmem, ⟨0, _⟩ => ⟨S16x512x32, .f32⟩
  | .local _ .vmem, ⟨1, _⟩ => ⟨S16x512x32, .f32⟩
  | .local _ .vmem, ⟨2, _⟩ => ⟨S64x32, .f32⟩
  | .local _ .vmem, ⟨3, _⟩ => ⟨S64x10, .f32⟩
  | .local _ .vmem, ⟨4, _⟩ => ⟨S10, .f32⟩
  | .local _ .vmem, ⟨5, _⟩ => ⟨S16x10, .f32⟩
  | .local _ .vmem, ⟨6, _⟩ => ⟨S16x10, .f32⟩
  | .local _ .vmem, ⟨7, _⟩ => ⟨S16x64, .f32⟩
  | _, _ => ⟨S32x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_14 : BitVec 32 := 0#32
  let v33 : BitVec 1 := Scalar.cmpi .ne v32 c0_i32_14
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x512x32_S16x512x32_0_0_0 : ∀ a, (![0, 0, 0] : Fin 3 → Nat) a + S16x512x32.size a ≤ S16x512x32.size a
  h_S16x512x32 : 0 < S16x512x32.numel
  inb_S64x32_S64x32_0_0 : ∀ a, (![0, 0] : Fin 2 → Nat) a + S64x32.size a ≤ S64x32.size a
  h_S64x32 : 0 < S64x32.numel
  reduces_S16x512x32_S16x512 : S16x512x32.Reduces [2] S16x512
  reduces_S64x32_S64 : S64x32.Reduces [1] S64
  shapeCasts_S16x512x32_S8192x32 : S16x512x32.ShapeCasts S8192x32
  bitsLt_bf16_f32 : FTy.bits .bf16 < FTy.bits .f32
  shapeCasts_S8192x64_S16x512x64 : S8192x64.ShapeCasts S16x512x64
  shapeCasts_S16x512_S16x512x1 : S16x512.ShapeCasts S16x512x1
  broadcasts_S16x512x1_S16x512x64 : S16x512x1.Broadcasts S16x512x64
  shapeCasts_S64_S1x1x64 : S64.ShapeCasts S1x1x64
  broadcasts_S1x1x64_S16x512x64 : S1x1x64.Broadcasts S16x512x64
  reduces_S16x512x64_S16x64 : S16x512x64.Reduces [1] S16x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S16x10 : S1x10.Broadcasts S16x10
  inb_S16x10_S16x10_0_0 : ∀ a, (![0, 0] : Fin 2 → Nat) a + S16x10.size a ≤ S16x10.size a
  h_S16x10 : 0 < S16x10.numel
  dot_S8192x32_S64x32_S8192x64_1_1_0_0_n_n_wf : DotDims.WF S8192x32 S64x32 S8192x64 [1] [1] [0] [0] [] []
  dot_S16x64_S64x10_S16x10_1_0_0_1_n_n_wf : DotDims.WF S16x64 S64x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x32.size a ≤ S32x2048x32.size a
  hwx0_0 : ∀ i : grid0.Coords, EltTy.bits .f32 = 32 ∨ (Rect.block (s := S32x2048x32) S16x512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x10.size a ≤ S64x10.size a
  hwx0_2 : ∀ i : grid0.Coords, EltTy.bits .f32 = 32 ∨ (Rect.block (s := S64x10) S64x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x10.size a ≤ S32x10.size a
  hwx0_4 : ∀ i : grid0.Coords, EltTy.bits .f32 = 32 ∨ (Rect.block (s := S32x10) S16x10.size (cc0_transform_4 i) (hinb0_4 i)).WholeWords (EltTy.packing .f32)

variable [Facts₀]

def dot_S8192x32_S64x32_S8192x64_1_1_0_0_n_n : DotDims S8192x32 S64x32 S8192x64 where
  lhsContracting := [1]
  rhsContracting := [1]
  lhsNonContracting := [0]
  rhsNonContracting := [0]
  lhsBatch := []
  rhsBatch := []
  wf := dot_S8192x32_S64x32_S8192x64_1_1_0_0_n_n_wf
def dot_S16x64_S64x10_S16x10_1_0_0_1_n_n : DotDims S16x64 S64x10 S16x10 where
  lhsContracting := [1]
  rhsContracting := [0]
  lhsNonContracting := [0]
  rhsNonContracting := [1]
  lhsBatch := []
  rhsBatch := []
  wf := dot_S16x64_S64x10_S16x10_1_0_0_1_n_n_wf

abbrev win0_0 : Pipeline.Window sig grid0 :=
  Pipeline.Window.ofSpec (Memref.whole main_arg0) S16x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x32 : Shape := ⟨3, ![32, 2048, 32]⟩
abbrev S64x32 : Shape := ⟨2, ![64, 32]⟩
abbrev S64x10 : Shape := ⟨2, ![64, 10]⟩
abbrev S10 : Shape := ⟨1, ![10]⟩
abbrev S32x2048x1x32 : Shape := ⟨4, ![32, 2048, 1, 32]⟩
abbrev S1x1x64x32 : Shape := ⟨4, ![1, 1, 64, 32]⟩
abbrev S32x2048x64x32 : Shape := ⟨4, ![32, 2048, 64, 32]⟩
abbrev S_ : Shape := ⟨0, ![]⟩
abbrev S32x2048x64 : Shape := ⟨3, ![32, 2048, 64]⟩
abbrev S32x64 : Shape := ⟨2, ![32, 64]⟩
abbrev S32x10 : Shape := ⟨2, ![32, 10]⟩
abbrev S1x10 : Shape := ⟨2, ![1, 10]⟩

abbrev nBuf : Space → Nat
  | .hbm => 28
  | .vmem => 0
  | .smem => 0
  | _ => 0

abbrev bufTy : (tb : Table) → Fin (tcTables nBuf tb) → BufTy
  | .hbm, ⟨0, _⟩ => ⟨S32x2048x32, .f32⟩
  | .hbm, ⟨1, _⟩ => ⟨S64x32, .f32⟩
  | .hbm, ⟨2, _⟩ => ⟨S64x10, .f32⟩
  | .hbm, ⟨3, _⟩ => ⟨S10, .f32⟩
  | .hbm, ⟨4, _⟩ => ⟨S32x2048x1x32, .f32⟩
  | .hbm, ⟨5, _⟩ => ⟨S1x1x64x32, .f32⟩
  | .hbm, ⟨6, _⟩ => ⟨S32x2048x64x32, .f32⟩
  | .hbm, ⟨7, _⟩ => ⟨S32x2048x64x32, .f32⟩
  | .hbm, ⟨8, _⟩ => ⟨S32x2048x64x32, .f32⟩
  | .hbm, ⟨9, _⟩ => ⟨S32x2048x64x32, .f32⟩
  | .hbm, ⟨10, _⟩ => ⟨S32x2048x64x32, .f32⟩
  | .hbm, ⟨11, _⟩ => ⟨S_, .f32⟩
  | .hbm, ⟨12, _⟩ => ⟨S32x2048x64, .f32⟩
  | .hbm, ⟨13, _⟩ => ⟨S32x2048x64, .f32⟩
  | .hbm, ⟨14, _⟩ => ⟨S_, .f32⟩
  | .hbm, ⟨15, _⟩ => ⟨S32x64, .f32⟩
  | .hbm, ⟨16, _⟩ => ⟨S32x10, .f32⟩
  | .hbm, ⟨17, _⟩ => ⟨S1x10, .f32⟩
  | .hbm, ⟨18, _⟩ => ⟨S32x10, .f32⟩
  | .hbm, ⟨19, _⟩ => ⟨S32x10, .f32⟩
  | .hbm, ⟨20, _⟩ => ⟨S32x10, .f32⟩
  | .hbm, ⟨21, _⟩ => ⟨S32x10, .f32⟩
  | .hbm, ⟨22, _⟩ => ⟨S_, .f32⟩
  | .hbm, ⟨23, _⟩ => ⟨S32x10, .f32⟩
  | .hbm, ⟨24, _⟩ => ⟨S32x10, .f32⟩
  | .hbm, ⟨25, _⟩ => ⟨S_, .f32⟩
  | .hbm, ⟨26, _⟩ => ⟨S32x10, .f32⟩
  | .hbm, ⟨27, _⟩ => ⟨S32x10, .f32⟩
  | _, _ => ⟨S32x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S32x2048x32_S32x2048x1x32_0_1_3 : S32x2048x32.BroadcastsInDim S32x2048x1x32 (![0, 1, 3] : Fin 3 → Fin S32x2048x1x32.rank)
  bcast_S64x32_S1x1x64x32_2_3 : S64x32.BroadcastsInDim S1x1x64x32 (![2, 3] : Fin 2 → Fin S1x1x64x32.rank)
  bcast_S32x2048x1x32_S32x2048x64x32_0_1_2_3 : S32x2048x1x32.BroadcastsInDim S32x2048x64x32 (![0, 1, 2, 3] : Fin 4 → Fin S32x2048x64x32.rank)
  bcast_S1x1x64x32_S32x2048x64x32_0_1_2_3 : S1x1x64x32.BroadcastsInDim S32x2048x64x32 (![0, 1, 2, 3] : Fin 4 → Fin S32x2048x64x32.rank)
  reducesTo_S32x2048x64x32_S32x2048x64_d3 : S32x2048x64x32.ReducesTo [3] S32x2048x64
  h_S_ : 0 < S_.numel
  reducesTo_S32x2048x64_S32x64_d1 : S32x2048x64.ReducesTo [1] S32x64
  bcast_S10_S1x10_1 : S10.BroadcastsInDim S1x10 (![1] : Fin 1 → Fin S1x10.rank)
  bcast_S1x10_S32x10_0_1 : S1x10.BroadcastsInDim S32x10 (![0, 1] : Fin 2 → Fin S32x10.rank)
  bcast_S_S32x10 : S_.BroadcastsInDim S32x10 (![] : Fin 0 → Fin S32x10.rank)
  dot_S32x64_S64x10_S32x10_1_0_0_1_n_n_wf : DotDims.WF S32x64 S64x10 S32x10 [1] [0] [0] [1] [] []

variable [Facts₀]

def dot_S32x64_S64x10_S32x10_1_0_0_1_n_n : DotDims S32x64 S64x10 S32x10 where
  lhsContracting := [1]
  rhsContracting := [0]
  lhsNonContracting := [0]
  rhsNonContracting := [1]
  lhsBatch := []
  rhsBatch := []
  wf := dot_S32x64_S64x10_S32x10_1_0_0_1_n_n_wf

class Facts : Prop extends Facts₀ where

variable [Facts]
-- ==== Proof.Pieces.lean ====
/-
  What each control case of the body leaves behind, as the body's arithmetic.

  The body has three cases, by the window tile `w` of the grid point: at the first tile it resets the running minimum
  to `+∞` and then updates it; at the middle tiles it only updates; at the last tile it updates and then classifies.
  Each case's stores cover the buffer they write, so what the case leaves in the running minimum (and, in the last
  case, in the output block) is the last store's value: the update of what the buffer held before — at the first
  tile, of the `+∞` block just stored — and the classifier applied to the updated minimum.
-/
import proofs.«109583_j66073776882276_1_alg».proof.Proof.Gen.KernelIdeal.Frame
import Idealize.ShloMosaic.Lib.Pipeline.Value

set_option maxRecDepth 16384

noncomputable section

namespace Cert.Shapelet.Pieces

open Cert.KernelIdeal Cert.KernelIdeal.Gen
open Idealize.ShloMosaic Idealize.ShloMosaic.TcCoe Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A MIDDLE tile leaves the running minimum updated. -/
theorem scratch_B (c : Dev nD) (i : grid0.Coords) (arg2 : Memref sig .tc .vmem S16x512x32 .f32) (harg2 : arg2.IsWhole) (arg3 : Memref sig .tc .vmem S64x32 .f32) (harg3 : arg3.IsWhole) (arg4 : Memref sig .tc .vmem S64x10 .f32) (harg4 : arg4.IsWhole) (arg5 : Memref sig .tc .vmem S10 .f32) (harg5 : arg5.IsWhole) (arg6 : Memref sig .tc .vmem S16x10 .f32) (harg6 : arg6.IsWhole) (arg7 : Memref sig .tc .vmem S16x64 .f32) (harg7 : arg7.IsWhole) (hc0 : ¬cond0_0 i) (hc1 : ¬cond0_1 i)
    (x0 : Vec F S16x512x32 .f32) (x1 : Vec F S64x32 .f32) (x2 : Vec F S64x10 .f32) (x3 : Vec F S10 .f32) (xs0 : Vec F S16x64 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg7.read_unread,
    View.ld_unit_zero (S := S16x512x32) hz3, View.ld_unit_zero (S := S64x32) hz2, View.ld_unit_zero (S := S16x64) hz2]

/-- The LAST tile leaves the running minimum updated likewise, -/
theorem scratch_C (c : Dev nD) (i : grid0.Coords) (arg2 : Memref sig .tc .vmem S16x512x32 .f32) (harg2 : arg2.IsWhole) (arg3 : Memref sig .tc .vmem S64x32 .f32) (harg3 : arg3.IsWhole) (arg4 : Memref sig .tc .vmem S64x10 .f32) (harg4 : arg4.IsWhole) (arg5 : Memref sig .tc .vmem S10 .f32) (harg5 : arg5.IsWhole) (arg6 : Memref sig .tc .vmem S16x10 .f32) (harg6 : arg6.IsWhole) (arg7 : Memref sig .tc .vmem S16x64 .f32) (harg7 : arg7.IsWhole) (hc0 : ¬cond0_0 i) (hc1 : cond0_1 i)
    (x0 : Vec F S16x512x32 .f32) (x1 : Vec F S64x32 .f32) (x2 : Vec F S64x10 .f32) (x3 : Vec F S10 .f32) (xs0 : Vec F S16x64 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg7.read_unread,
    View.ld_unit_zero (S := S16x512x32) hz3, View.ld_unit_zero (S := S64x32) hz2, View.ld_unit_zero (S := S16x64) hz2]

/-- and the output block at the classifier of the updated minimum. -/
theorem out_C (c : Dev nD) (i : grid0.Coords) (arg2 : Memref sig .tc .vmem S16x512x32 .f32) (harg2 : arg2.IsWhole) (arg3 : Memref sig .tc .vmem S64x32 .f32) (harg3 : arg3.IsWhole) (arg4 : Memref sig .tc .vmem S64x10 .f32) (harg4 : arg4.IsWhole) (arg5 : Memref sig .tc .vmem S10 .f32) (harg5 : arg5.IsWhole) (arg6 : Memref sig .tc .vmem S16x10 .f32) (harg6 : arg6.IsWhole) (arg7 : Memref sig .tc .vmem S16x64 .f32) (harg7 : arg7.IsWhole) (hc0 : ¬cond0_0 i) (hc1 : cond0_1 i)
    (x0 : Vec F S16x512x32 .f32) (x1 : Vec F S64x32 .f32) (x2 : Vec F S64x10 .f32) (x3 : Vec F S10 .f32) (xs0 : Vec F S16x64 .f32) :
    out0_C_4 c i arg2 harg2 arg3 harg3 arg4 harg4 arg5 harg5 arg6 harg6 arg7 harg7 hc0 hc1 x0 x1 x2 x3 xs0 = k0_pay3 (k0_pay2 x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S16x512x32) hz3, View.ld_unit_zero (S := S64x32) hz2, View.ld_unit_zero (S := S16x64) hz2,
    View.ld_unit_zero (S := S64x10) hz2, View.ld_unit_zero (S := S10) hz1, View.readCov_unit_zero (S := S16x64) _ hz2]

/-- The FIRST tile leaves the running minimum at the update of the `+∞` block. -/
theorem scratch_A (c : Dev nD) (i : grid0.Coords) (arg2 : Memref sig .tc .vmem S16x512x32 .f32) (harg2 : arg2.IsWhole) (arg3 : Memref sig .tc .vmem S64x32 .f32) (harg3 : arg3.IsWhole) (arg4 : Memref sig .tc .vmem S64x10 .f32) (harg4 : arg4.IsWhole) (arg5 : Memref sig .tc .vmem S10 .f32) (harg5 : arg5.IsWhole) (arg6 : Memref sig .tc .vmem S16x10 .f32) (harg6 : arg6.IsWhole) (arg7 : Memref sig .tc .vmem S16x64 .f32) (harg7 : arg7.IsWhole) (hc0 : cond0_0 i) (hc1 : ¬cond0_1 i)
    (x0 : Vec F S16x512x32 .f32) (x1 : Vec F S64x32 .f32) (x2 : Vec F S64x10 .f32) (x3 : Vec F S10 .f32) :
    sout0_A_0 c i arg2 harg2 arg3 harg3 arg4 harg4 arg5 harg5 arg6 harg6 arg7 harg7 hc0 hc1 x0 x1 x2 x3 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x64) hz2, View.readCov_unit_zero (S := S16x64) _ hz2]
  simp only [View.readAt_eq_ld, harg2.read_unread, harg3.read_unread, harg7.read_unread,
    View.ld_unit_zero (S := S16x512x32) hz3, View.ld_unit_zero (S := S64x32) hz2, View.ld_unit_zero (S := S16x64) hz2]

end Cert.Shapelet.Pieces

end
-- ==== Proof.Spec.lean ====
/-
  Shapelet distances and the classifier over them, as ONE function of the four argument arrays.

  A series `x[b, w, ·]` (32 batches, 2048 windows, 32 samples a window) is compared with each of 64 shapelets
  `s[j, ·]`: the distance of window `w` to shapelet `j` is the Euclidean norm of the difference, the square root of
  the sum over the 32 samples of the squared magnitude. A batch's feature for shapelet `j` is the SMALLEST such
  distance over its 2048 windows. The 64 features go through a linear layer (`cls_w`, `cls_b`) into 10 logits, and
  the result is the logistic function of each logit.

  Everything is stated on the extended reals, where a minimum over no window would be `⊤`; the minimum over the
  windows is a fold of `min` from `⊤`, and is characterised by its lower bounds (`le_minDist_iff`): that is the
  form in which a minimum taken tile by tile is compared with it.
-/
import Idealize.ShloMosaic.PureOps.Ideal
import Idealize.ShloMosaic.PureOps.Ideal.Laws
import Idealize.ShloMosaic.Lib.ValueIdx
import Mathlib.Data.Finset.Fold

noncomputable section

namespace Cert.Shapelet

open Idealize.ShloMosaic Idealize.ShloMosaic.ValueIdx
open Finset BigOperators

/-- The series: batch, window, sample. -/
abbrev Series := (⟨3, ![32, 2048, 32]⟩ : Shape).Idx → EReal
/-- The shapelets: shapelet, sample. -/
abbrev Book := (⟨2, ![64, 32]⟩ : Shape).Idx → EReal
/-- The classifier's weights: shapelet, class. -/
abbrev Weights := (⟨2, ![64, 10]⟩ : Shape).Idx → EReal
/-- The classifier's bias: class. -/
abbrev Bias := (⟨1, ![10]⟩ : Shape).Idx → EReal

/-- The magnitude of an extended real: the larger of it and its negation. -/
def mag (a : EReal) : EReal := max a (-a)

/-- The squared distance of window `w` of batch `b` to shapelet `j`: the sum over the samples of the squared
    magnitude of the difference. -/
def sqDist (x : Series) (s : Book) (b : Fin 32) (w : Fin 2048) (j : Fin 64) : EReal :=
  ∑ l : Fin 32, mag (x (ix3 b w l) - s (ix2 j l)) * mag (x (ix3 b w l) - s (ix2 j l))

/-- The distance: its square root. -/
def dist (x : Series) (s : Book) (b : Fin 32) (w : Fin 2048) (j : Fin 64) : EReal :=
  Ideal.sqrt (sqDist x s b w j)

/-- A batch's feature for shapelet `j`: the smallest distance over the windows. -/
def minDist (x : Series) (s : Book) (b : Fin 32) (j : Fin 64) : EReal :=
  (univ : Finset (Fin 2048)).fold min (⊤ : EReal) fun w => dist x s b w j

/-- The logit of class `o` for batch `b`: the features through the linear layer. -/
def logit (x : Series) (s : Book) (cw : Weights) (cb : Bias) (b : Fin 32) (o : Fin 10) : EReal :=
  (∑ k : Fin 64, minDist x s b k * cw (ix2 k o)) + cb (ix1 o)

/-- The result: the logistic function of every logit. -/
def score (x : Series) (s : Book) (cw : Weights) (cb : Bias) : (⟨2, ![32, 10]⟩ : Shape).Idx → EReal :=
  fun i => Ideal.logistic (logit x s cw cb (i 0) (i 1))

/-- The smallest distance by its lower bounds: `c` is below it exactly when `c` is below every window's distance. -/
theorem le_minDist_iff (x : Series) (s : Book) (b : Fin 32) (j : Fin 64) (c : EReal) :
    c ≤ minDist x s b j ↔ ∀ w : Fin 2048, c ≤ dist x s b w j := by
  unfold minDist
  rw [Finset.le_fold_min]
  exact ⟨fun h w => h.2 w (mem_univ w), fun h => ⟨le_top, fun w _ => h w⟩⟩

/-- Two extended reals with the same lower bounds are equal. -/
theorem eq_of_lower_bounds {a b : EReal} (h : ∀ c : EReal, c ≤ a ↔ c ≤ b) : a = b :=
  le_antisymm ((h a).mp le_rfl) ((h b).mpr le_rfl)

end Cert.Shapelet

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Algebra.lean ====
/-
  The law that joins the two sides: for REAL entries, the expanded square is the sum of squared differences.

  The kernel never forms the differences `x - s`: it computes `Σ x² - 2·Σ x·s + Σ s²`, clamps it at zero from below
  and takes the square root. Over the reals `Σ x² - 2·Σ x·s + Σ s² = Σ (x - s)²`, which is non-negative, so the clamp
  does nothing; and `|a|·|a| = a²`, so this is also the sum of squared magnitudes the reference computes. On the
  extended reals the identity needs every entry finite (at an infinite entry `x² - 2·x·s` is `⊤ - ⊤`): the entries
  are coerced reals here, and the statement is pushed down to the reals through the coercion.
-/
import proofs.«109583_j66073776882276_1_alg».proof.Proof.Spec
import proofs.«109583_j66073776882276_1_alg».proof.Proof.LibCoe
import Mathlib.Algebra.BigOperators.Ring.Finset
import Mathlib.Algebra.Order.BigOperators.Ring.Finset
import Mathlib.Tactic.Ring

noncomputable section

namespace Cert.Shapelet

open Idealize.ShloMosaic
open Finset BigOperators

/-- The single-precision pattern of `2.0` (exponent field 128, fraction 0) denotes the real `2`. -/
theorem ofBits_two : Ideal.ofBits .f32 0x40000000#32 = ((2 : ℝ) : EReal) := by
  simp [Ideal.ofBits, Ideal.ieee, -EReal.coe_mul]; norm_num

/-- The single-precision pattern of `+∞` (exponent field all ones, fraction 0) denotes `⊤`. -/
theorem ofBits_pos_inf : Ideal.ofBits .f32 0x7F800000#32 = (⊤ : EReal) := by
  simp [Ideal.ofBits, Ideal.ieee]

/-- The magnitude of a coerced real is the coerced absolute value. -/
theorem mag_coe (a : ℝ) : mag (a : EReal) = ((|a| : ℝ) : EReal) := by
  unfold mag
  rw [Cert.LibCoe.neg_coe, Cert.LibCoe.max_coe, ← abs_eq_max_neg]

/-- Over the reals: `Σ u² - 2·Σ u·v + Σ v² = Σ (u - v)²`. -/
theorem real_expand (u v : Fin 32 → ℝ) :
    (∑ l, u l * u l) - 2 * (∑ l, u l * v l) + (∑ l, v l * v l) = ∑ l, (u l - v l) * (u l - v l) := by
  rw [Finset.mul_sum, ← Finset.sum_sub_distrib, ← Finset.sum_add_distrib]
  exact Finset.sum_congr rfl fun l _ => by ring

/-- THE LAW, on coerced reals: the expanded square clamped at zero is the sum of squared magnitudes of the
    differences. The constants `2` and `0` are the patterns the kernel splats. -/
theorem expand_eq (u v : Fin 32 → ℝ) :
    max (((∑ l, (u l : EReal) * (u l : EReal))
          - Ideal.ofBits .f32 0x40000000#32 * (∑ l, (u l : EReal) * (v l : EReal)))
          + (∑ l, (v l : EReal) * (v l : EReal)))
        (Ideal.ofBits .f32 0x00000000#32)
      = ∑ l, mag ((u l : EReal) - (v l : EReal)) * mag ((u l : EReal) - (v l : EReal)) := by
  have hr : ∀ l, mag ((u l : EReal) - (v l : EReal)) * mag ((u l : EReal) - (v l : EReal))
      = (((u l - v l) * (u l - v l) : ℝ) : EReal) := fun l => by
    rw [Cert.LibCoe.sub_coe, mag_coe, Cert.LibCoe.mul_coe, abs_mul_abs_self]
  simp only [hr]
  simp only [Cert.LibCoe.mul_coe, Cert.LibCoe.sum_coe, ofBits_two, Cert.LibCoe.ofBits_zero,
    Cert.LibCoe.sub_coe, Cert.LibCoe.add_coe, Cert.LibCoe.max_coe]
  rw [real_expand, max_eq_left (Finset.sum_nonneg fun l _ => mul_self_nonneg _)]

end Cert.Shapelet

end
-- ==== Proof.Payload.lean ====
/-
  The kernel body's arithmetic, read at an index.

  At a grid point the body holds a tile of the series (16 batches × 512 windows × 32 samples), all 64 shapelets, and
  the running minimum (16 × 64). It computes, for batch `p`, window `r` of the tile and shapelet `j`, the expanded
  square `Σ x² - 2·Σ x·s + Σ s²` clamped at zero (`tileSq`) — the sums over the 32 samples; the middle one is a matrix
  product of the tile, flattened to 8192 rows, with the shapelets, read back at row `512·p + r` —, its square root,
  the minimum of those over the tile's 512 windows, and the minimum of that with the running minimum
  (`update_apply`). At the last window tile it multiplies the running minimum by the classifier's weights, adds the
  bias and applies the logistic function (`classify_apply`). A change of float format is the identity on the
  extended reals, so the products of the narrowed operands are the products of the operands.
-/
import proofs.«109583_j66073776882276_1_alg».proof.Proof.Gen.KernelIdeal.Skeleton
import proofs.«109583_j66073776882276_1_alg».proof.Proof.Spec
import proofs.«109583_j66073776882276_1_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Shapelet.Pay

open Cert.KernelIdeal Cert.KernelIdeal.Gen
open Idealize.ShloMosaic Idealize.ShloMosaic.ValueIdx Idealize.ShloMosaic.TcCoe
open Finset BigOperators

/-- The expanded square of the distance of window `r` of batch `p` of a tile to shapelet `j`, clamped at zero. -/
def tileSq (xt : S16x512x32.Idx → EReal) (st : S64x32.Idx → EReal) (p : Fin 16) (r : Fin 512) (j : Fin 64) : EReal :=
  max (((∑ l : Fin 32, xt (ix3 p r l) * xt (ix3 p r l))
        - Ideal.ofBits .f32 0x40000000#32 * (∑ l : Fin 32, xt (ix3 p r l) * st (ix2 j l)))
        + (∑ l : Fin 32, st (ix2 j l) * st (ix2 j l)))
      (Ideal.ofBits .f32 0x00000000#32)

/-- The tile's smallest distance to shapelet `j` for batch `p`: the minimum over its 512 windows. -/
def tileMin (xt : S16x512x32.Idx → EReal) (st : S64x32.Idx → EReal) (p : Fin 16) (j : Fin 64) : EReal :=
  (univ : Finset (Fin 512)).fold min (⊤ : EReal) fun r => Ideal.sqrt (tileSq xt st p r j)

/-- A window's squared norm: the sum over the sample axis of a rank-3 tile's squares. -/
theorem sumSq_tile (v : FVec Ideal S16x512x32 .f32) (h : S16x512x32.Reduces [2] S16x512) (hφ : FKind.Formats .f32)
    (hacc : (0x00000000#32 : BitVec 32) = 0x00000000#32) (p : Fin 16) (r : Fin 512) :
    multiReduction (F := Ideal) .add [2] S16x512 (mulf v v) 0x00000000#32 h hφ hacc (ix2 p r)
      = ∑ l : Fin 32, v (ix3 p r l) * v (ix3 p r l) := by
  refine (Ideal.multiReduction_add_single (mulf v v) 0x00000000#32 h hφ hacc (ix2 p r)).trans ?_
  refine Finset.sum_congr rfl fun l _ => ?_
  have e : h.lift (ix2 p r) l = ix3 p r l :=
    funext fun a => Fin.ext (by match a with | ⟨0, _⟩ => rfl | ⟨1, _⟩ => rfl | ⟨2, _⟩ => rfl)
  rw [e]; rfl

/-- A shapelet's squared norm: the sum over the sample axis of the shapelets' squares. -/
theorem sumSq_book (v : FVec Ideal S64x32 .f32) (h : S64x32.Reduces [1] S64) (hφ : FKind.Formats .f32)
    (hacc : (0x00000000#32 : BitVec 32) = 0x00000000#32) (j : Fin 64) :
    multiReduction (F := Ideal) .add [1] S64 (mulf v v) 0x00000000#32 h hφ hacc (ix1 j)
      = ∑ l : Fin 32, v (ix2 j l) * v (ix2 j l) := by
  refine (Ideal.multiReduction_add_single (mulf v v) 0x00000000#32 h hφ hacc (ix1 j)).trans ?_
  refine Finset.sum_congr rfl fun l _ => ?_
  have e : h.lift (ix1 j) l = ix2 j l :=
    funext fun a => Fin.ext (by match a with | ⟨0, _⟩ => rfl | ⟨1, _⟩ => rfl)
  rw [e]; rfl

/-- The minimum over the window axis of a rank-3 tile, from `+∞`, at batch `p` and shapelet `j`. -/
theorem minOverWindows (v : FVec Ideal S16x512x64 .f32) (h : S16x512x64.Reduces [1] S16x64) (hφ : FKind.Formats .f32)
    (hacc : (0x7F800000#32 : BitVec 32) = 0x7F800000#32) (p : Fin 16) (j : Fin 64) :
    multiReduction (F := Ideal) .minimumf [1] S16x64 v 0x7F800000#32 h hφ hacc (ix2 p j)
      = (univ : Finset (Fin 512)).fold min (⊤ : EReal) fun r => v (ix3 p r j) := by
  refine (multiReduction_minimumf_eq_fold v 0x7F800000#32 h hφ hacc (ix2 p j)).trans ?_
  rw [h.fold_filter_drop_single]
  have e : (v ∘ h.lift (ix2 p j)) = fun r : Fin 512 => v (ix3 p r j) := funext fun r =>
    congrArg v (funext fun a => Fin.ext (by match a with | ⟨0, _⟩ => rfl | ⟨1, _⟩ => rfl | ⟨2, _⟩ => rfl))
  rw [e]
  show Finset.fold min (Ideal.ofBits .f32 0x7F800000#32) _ _ = _
  rw [ofBits_pos_inf]
  rfl

/-! ## The cross term: the flattened tile times the shapelets -/

theorem lhs_cross_0 (i : S8192x64.Idx) (q : dot_S8192x32_S64x32_S8192x64_1_1_0_0_n_n.contr.Idx) :
    (dot_S8192x32_S64x32_S8192x64_1_1_0_0_n_n.lhsIdx i q 0).val = (i 0).val := by
  unfold DotDims.lhsIdx
  rw [dif_neg (show ¬(0 : Fin S8192x32.rank) ∈ dot_S8192x32_S64x32_S8192x64_1_1_0_0_n_n.lhsBatch by decide), dif_pos (show (0 : Fin S8192x32.rank) ∈ dot_S8192x32_S64x32_S8192x64_1_1_0_0_n_n.lhsNonContracting by decide)]
  rfl
theorem lhs_cross_1 (i : S8192x64.Idx) (q : dot_S8192x32_S64x32_S8192x64_1_1_0_0_n_n.contr.Idx) :
    (dot_S8192x32_S64x32_S8192x64_1_1_0_0_n_n.lhsIdx i q 1).val = (q ⟨0, by decide⟩).val :=
  dot_S8192x32_S64x32_S8192x64_1_1_0_0_n_n.lhsIdx_val_of_single rfl i q
theorem rhs_cross_0 (i : S8192x64.Idx) (q : dot_S8192x32_S64x32_S8192x64_1_1_0_0_n_n.contr.Idx) :
    (dot_S8192x32_S64x32_S8192x64_1_1_0_0_n_n.rhsIdx i q 0).val = (i 1).val := by
  unfold DotDims.rhsIdx
  rw [dif_neg (show ¬(0 : Fin S64x32.rank) ∈ dot_S8192x32_S64x32_S8192x64_1_1_0_0_n_n.rhsBatch by decide), dif_pos (show (0 : Fin S64x32.rank) ∈ dot_S8192x32_S64x32_S8192x64_1_1_0_0_n_n.rhsNonContracting by decide)]
  rfl
theorem rhs_cross_1 (i : S8192x64.Idx) (q : dot_S8192x32_S64x32_S8192x64_1_1_0_0_n_n.contr.Idx) :
    (dot_S8192x32_S64x32_S8192x64_1_1_0_0_n_n.rhsIdx i q 1).val = (q ⟨0, by decide⟩).val :=
  dot_S8192x32_S64x32_S8192x64_1_1_0_0_n_n.rhsIdx_val_of_single rfl i q

/-- Row `q` of the flattened tile against shapelet `j`: the sum over the samples of the products. -/
theorem cross_flat (xf : FVec Ideal S8192x32 .bf16) (sb : FVec Ideal S64x32 .bf16) (q : Fin 8192) (j : Fin 64) :
    matmul (F := Ideal) dot_S8192x32_S64x32_S8192x64_1_1_0_0_n_n none xf sb (constant S8192x64 .f32 0x00000000#32) (ix2 q j)
      = ∑ l : Fin 32, xf (ix2 q l) * sb (ix2 j l) := by
  simp only [matmul]
  rw [Ideal.matmul_constant_zero_apply, ← Equiv.sum_comp (ValueIdx.contrEquiv1 dot_S8192x32_S64x32_S8192x64_1_1_0_0_n_n 32 rfl rfl).symm]
  refine Finset.sum_congr rfl fun k _ => ?_
  have hk := ValueIdx.contrEquiv1_symm_val dot_S8192x32_S64x32_S8192x64_1_1_0_0_n_n 32 rfl rfl k
  have el : dot_S8192x32_S64x32_S8192x64_1_1_0_0_n_n.lhsIdx (ix2 q j) ((ValueIdx.contrEquiv1 dot_S8192x32_S64x32_S8192x64_1_1_0_0_n_n 32 rfl rfl).symm k) = ix2 q k := funext fun a => Fin.ext (by
    match a with
    | ⟨0, _⟩ => exact lhs_cross_0 _ _
    | ⟨1, _⟩ => exact (lhs_cross_1 _ _).trans hk)
  have er : dot_S8192x32_S64x32_S8192x64_1_1_0_0_n_n.rhsIdx (ix2 q j) ((ValueIdx.contrEquiv1 dot_S8192x32_S64x32_S8192x64_1_1_0_0_n_n 32 rfl rfl).symm k) = ix2 j k := funext fun a => Fin.ext (by
    match a with
    | ⟨0, _⟩ => exact rhs_cross_0 _ _
    | ⟨1, _⟩ => exact (rhs_cross_1 _ _).trans hk)
  rw [el, er]

/-- The tile flattened to 8192 rows, at row `512·p + r`, is the tile at batch `p`, window `r`. -/
theorem flat_apply (xt : S16x512x32.Idx → EReal) (h : S16x512x32.ShapeCasts S8192x32) (p : Fin 16) (r : Fin 512) (l : Fin 32)
    (hq : p.val * 512 + r.val < 8192) :
    shapeCast S8192x32 xt h (ix2 (⟨p.val * 512 + r.val, hq⟩ : Fin 8192) l) = xt (ix3 p r l) :=
  shapeCast_apply xt h _ _ (by rw [Shape.rowMajor_val_three, Shape.rowMajor_val_two]; rfl)

/-- The product read back as batch × window × shapelet, at (p, r, j), is the flat product at row `512·p + r`. -/
theorem unflat_apply (y : S8192x64.Idx → EReal) (h : S8192x64.ShapeCasts S16x512x64) (p : Fin 16) (r : Fin 512) (j : Fin 64)
    (hq : p.val * 512 + r.val < 8192) :
    shapeCast S16x512x64 y h (ix3 p r j) = y (ix2 (⟨p.val * 512 + r.val, hq⟩ : Fin 8192) j) :=
  shapeCast_apply y h _ _ (by rw [Shape.rowMajor_val_three, Shape.rowMajor_val_two]; rfl)

/-- A window's squared norm, given a unit shapelet axis and spread over the shapelets, at (p, r, j). -/
theorem spreadRows_apply (y : S16x512.Idx → EReal) (h1 : S16x512.ShapeCasts S16x512x1) (h2 : S16x512x1.Broadcasts S16x512x64)
    (p : Fin 16) (r : Fin 512) (j : Fin 64) :
    broadcastTo S16x512x64 (shapeCast S16x512x1 y h1) h2 (ix3 p r j) = y (ix2 p r) := by
  rw [broadcastTo_apply _ h2 (ix3 p r j) (ix3 p r (0 : Fin 1)) (fun a => by
    match a with
    | ⟨0, _⟩ => rfl
    | ⟨1, _⟩ => rfl
    | ⟨2, _⟩ => rfl)]
  exact shapeCast_apply y h1 _ _ (by
    rw [Shape.rowMajor_val_three, Shape.rowMajor_val_two]
    show p.val * 512 + r.val = (p.val * 512 + r.val) * 1 + 0
    omega)

/-- A shapelet's squared norm, given unit batch and window axes and spread over them, at (p, r, j). -/
theorem spreadBook_apply (y : S64.Idx → EReal) (h1 : S64.ShapeCasts S1x1x64) (h2 : S1x1x64.Broadcasts S16x512x64)
    (p : Fin 16) (r : Fin 512) (j : Fin 64) :
    broadcastTo S16x512x64 (shapeCast S1x1x64 y h1) h2 (ix3 p r j) = y (ix1 j) := by
  rw [broadcastTo_apply _ h2 (ix3 p r j) (ix3 (0 : Fin 1) (0 : Fin 1) j) (fun a => by
    match a with
    | ⟨0, _⟩ => rfl
    | ⟨1, _⟩ => rfl
    | ⟨2, _⟩ => rfl)]
  exact shapeCast_apply y h1 _ _ (by
    rw [Shape.rowMajor_val_three, Shape.rowMajor_val_one]
    show j.val = (0 * 1 + 0) * 64 + j.val
    omega)

/-! ## The running minimum's update -/

/-- The square root of a vector, lane by lane. -/
theorem sqrt_apply {s : Shape} {φ : FTy} (a : FVec Ideal s φ) (i : s.Idx) : sqrt a i = Ideal.sqrt (a i) := rfl

/-- The logistic function of a vector, lane by lane. -/
theorem logistic_apply {s : Shape} {φ : FTy} (a : FVec Ideal s φ) (i : s.Idx) : logistic a i = Ideal.logistic (a i) := rfl

/-- A scalar constant's pattern, read on the extended reals. -/
theorem scalar_ofBits (φ : FTy) (b : BitVec φ.bits) : Scalar.ofBits (F := Ideal) φ b = Ideal.ofBits φ b := rfl

/-- THE UPDATE at batch `p` and shapelet `j`: the smaller of the running minimum and the tile's smallest distance. -/
theorem update_apply (xt : Vec Ideal S16x512x32 .f32) (st : Vec Ideal S64x32 .f32) (acc : Vec Ideal S16x64 .f32)
    (p : Fin 16) (j : Fin 64) :
    k0_pay2 (F := Ideal) xt st acc (ix2 p j) = min (acc (ix2 p j)) (tileMin xt st p j) := by
  unfold k0_pay2
  dsimp only
  rw [shapeCast_self, minimumf_apply]
  refine congrArg (min _) ((minOverWindows _ _ _ _ p j).trans ?_)
  unfold tileMin
  refine congrArg (fun f => Finset.fold min (⊤ : EReal) f univ) (funext fun r => ?_)
  have hq : p.val * 512 + r.val < 8192 := by have := p.isLt; have := r.isLt; omega
  rw [sqrt_apply, maximumf_apply, addf_apply, subf_apply, mulf_apply, broadcast_apply, broadcast_apply,
    spreadRows_apply, spreadBook_apply, unflat_apply _ _ p r j hq, cross_flat]
  unfold tileSq
  refine congrArg Ideal.sqrt (congrArg (max · _) ?_)
  refine congrArg₂ (· + ·) (congrArg₂ (· - ·) (sumSq_tile _ _ _ _ p r) (congrArg (_ * ·) ?_)) (sumSq_book _ _ _ _ j)
  exact Finset.sum_congr rfl fun l _ => by rw [truncf_apply, truncf_apply, flat_apply _ _ p r l hq]

/-! ## The classifier -/

theorem lhs_cls_0 (i : S16x10.Idx) (q : dot_S16x64_S64x10_S16x10_1_0_0_1_n_n.contr.Idx) :
    (dot_S16x64_S64x10_S16x10_1_0_0_1_n_n.lhsIdx i q 0).val = (i 0).val := by
  unfold DotDims.lhsIdx
  rw [dif_neg (show ¬(0 : Fin S16x64.rank) ∈ dot_S16x64_S64x10_S16x10_1_0_0_1_n_n.lhsBatch by decide), dif_pos (show (0 : Fin S16x64.rank) ∈ dot_S16x64_S64x10_S16x10_1_0_0_1_n_n.lhsNonContracting by decide)]
  rfl
theorem lhs_cls_1 (i : S16x10.Idx) (q : dot_S16x64_S64x10_S16x10_1_0_0_1_n_n.contr.Idx) :
    (dot_S16x64_S64x10_S16x10_1_0_0_1_n_n.lhsIdx i q 1).val = (q ⟨0, by decide⟩).val :=
  dot_S16x64_S64x10_S16x10_1_0_0_1_n_n.lhsIdx_val_of_single rfl i q
theorem rhs_cls_0 (i : S16x10.Idx) (q : dot_S16x64_S64x10_S16x10_1_0_0_1_n_n.contr.Idx) :
    (dot_S16x64_S64x10_S16x10_1_0_0_1_n_n.rhsIdx i q 0).val = (q ⟨0, by decide⟩).val :=
  dot_S16x64_S64x10_S16x10_1_0_0_1_n_n.rhsIdx_val_of_single rfl i q
theorem rhs_cls_1 (i : S16x10.Idx) (q : dot_S16x64_S64x10_S16x10_1_0_0_1_n_n.contr.Idx) :
    (dot_S16x64_S64x10_S16x10_1_0_0_1_n_n.rhsIdx i q 1).val = (i 1).val := by
  unfold DotDims.rhsIdx
  rw [dif_neg (show ¬(1 : Fin S64x10.rank) ∈ dot_S16x64_S64x10_S16x10_1_0_0_1_n_n.rhsBatch by decide), dif_pos (show (1 : Fin S64x10.rank) ∈ dot_S16x64_S64x10_S16x10_1_0_0_1_n_n.rhsNonContracting by decide)]
  rfl

/-- The features of batch `p` against the weights of class `o`: the sum over the 64 shapelets of the products. -/
theorem cls_matmul (f : FVec Ideal S16x64 .bf16) (wt : FVec Ideal S64x10 .bf16) (p : Fin 16) (o : Fin 10) :
    matmul (F := Ideal) dot_S16x64_S64x10_S16x10_1_0_0_1_n_n none f wt (constant S16x10 .f32 0x00000000#32) (ix2 p o)
      = ∑ k : Fin 64, f (ix2 p k) * wt (ix2 k o) := by
  simp only [matmul]
  rw [Ideal.matmul_constant_zero_apply, ← Equiv.sum_comp (ValueIdx.contrEquiv1 dot_S16x64_S64x10_S16x10_1_0_0_1_n_n 64 rfl rfl).symm]
  refine Finset.sum_congr rfl fun k _ => ?_
  have hk := ValueIdx.contrEquiv1_symm_val dot_S16x64_S64x10_S16x10_1_0_0_1_n_n 64 rfl rfl k
  have el : dot_S16x64_S64x10_S16x10_1_0_0_1_n_n.lhsIdx (ix2 p o) ((ValueIdx.contrEquiv1 dot_S16x64_S64x10_S16x10_1_0_0_1_n_n 64 rfl rfl).symm k) = ix2 p k := funext fun a => Fin.ext (by
    match a with
    | ⟨0, _⟩ => exact lhs_cls_0 _ _
    | ⟨1, _⟩ => exact (lhs_cls_1 _ _).trans hk)
  have er : dot_S16x64_S64x10_S16x10_1_0_0_1_n_n.rhsIdx (ix2 p o) ((ValueIdx.contrEquiv1 dot_S16x64_S64x10_S16x10_1_0_0_1_n_n 64 rfl rfl).symm k) = ix2 k o := funext fun a => Fin.ext (by
    match a with
    | ⟨0, _⟩ => exact (rhs_cls_0 _ _).trans hk
    | ⟨1, _⟩ => exact rhs_cls_1 _ _)
  rw [el, er]

/-- THE CLASSIFIER at batch `p` and class `o`: the logistic function of the features through the linear layer. -/
theorem classify_apply (f : Vec Ideal S16x64 .f32) (wt : Vec Ideal S64x10 .f32) (bs : Vec Ideal S10 .f32)
    (p : Fin 16) (o : Fin 10) :
    k0_pay3 (F := Ideal) f wt bs (ix2 p o)
      = Ideal.logistic ((∑ k : Fin 64, f (ix2 p k) * wt (ix2 k o)) + bs (ix1 o)) := by
  unfold k0_pay3
  rw [logistic_apply, addf_apply, cls_matmul, broadcastTo_1b_ab_apply, shapeCast_a_1a_apply]
  simp only [truncf_apply]

end Cert.Shapelet.Pay

end
-- ==== Proof.Tile.lean ====
/-
  One tile's distances are the series' distances, and the tile's minimum by its lower bounds.

  A tile holds 512 windows of 16 batches; window `r` of batch `p` of the tile is some window `w` of some batch `b` of
  the series. With every entry of the series and of the shapelets a real number, the expanded square the kernel
  computes for (p, r, j) is the sum of squared magnitudes the reference computes for (b, w, j), so the square roots —
  the distances — agree.
-/
import proofs.«109583_j66073776882276_1_alg».proof.Proof.Payload
import proofs.«109583_j66073776882276_1_alg».proof.Proof.Algebra

noncomputable section

namespace Cert.Shapelet

open Cert.KernelIdeal
open Idealize.ShloMosaic Idealize.ShloMosaic.ValueIdx
open Finset BigOperators

/-- Every entry of an array is (the coercion of) a real number. -/
def RealValued {ι : Type} (f : ι → EReal) : Prop := ∀ i, ∃ r : ℝ, f i = (r : EReal)

/-- The tile's minimum by its lower bounds: `c` is below it exactly when `c` is below every window's distance. -/
theorem le_tileMin_iff (xt : S16x512x32.Idx → EReal) (st : S64x32.Idx → EReal) (p : Fin 16) (j : Fin 64) (c : EReal) :
    c ≤ Pay.tileMin xt st p j ↔ ∀ r : Fin 512, c ≤ Ideal.sqrt (Pay.tileSq xt st p r j) := by
  unfold Pay.tileMin
  rw [Finset.le_fold_min]
  exact ⟨fun h r => h.2 r (mem_univ r), fun h => ⟨le_top, fun r _ => h r⟩⟩

/-- A tile's window against a shapelet: where the tile's window `r` of batch `p` IS window `w` of batch `b` of a
    real-valued series, and the tile's shapelets are the real-valued shapelets, the kernel's distance is `dist`. -/
theorem tile_dist (x : Series) (s : Book) (hx : RealValued x) (hs : RealValued s)
    (xt : S16x512x32.Idx → EReal) (st : S64x32.Idx → EReal) (b : Fin 32) (w : Fin 2048) (p : Fin 16) (r : Fin 512) (j : Fin 64)
    (hxt : ∀ l : Fin 32, xt (ix3 p r l) = x (ix3 b w l)) (hst : ∀ l : Fin 32, st (ix2 j l) = s (ix2 j l)) :
    Ideal.sqrt (Pay.tileSq xt st p r j) = dist x s b w j := by
  choose xr hxr using hx
  choose sr hsr using hs
  unfold Pay.tileSq dist sqDist
  simp only [hxt, hst, hxr, hsr]
  rw [expand_eq (fun l => xr (ix3 b w l)) (fun l => sr (ix2 j l))]

/-- The windows seen after one more tile: the first `(k + 1) · 512` windows are the first `k · 512` and the 512 windows
    of tile `k`. -/
theorem forall_window_succ (k : ℕ) (P : Fin 2048 → Prop) :
    (∀ w : Fin 2048, w.val < (k + 1) * 512 → P w)
      ↔ (∀ w : Fin 2048, w.val < k * 512 → P w) ∧ ∀ (r : Fin 512) (w : Fin 2048), w.val = 512 * k + r.val → P w := by
  constructor
  · intro h
    exact ⟨fun w hw => h w (by omega), fun r w hw => h w (by have := r.isLt; omega)⟩
  · rintro ⟨h1, h2⟩ w hw
    by_cases hlt : w.val < k * 512
    · exact h1 w hlt
    · exact h2 ⟨w.val - 512 * k, by omega⟩ w (by show w.val = 512 * k + (w.val - 512 * k); omega)

/-- Before any tile no window has been seen. -/
theorem forall_window_zero (P : Fin 2048 → Prop) : ∀ w : Fin 2048, w.val < 0 * 512 → P w :=
  fun w hw => absurd hw (by omega)

end Cert.Shapelet

end
-- ==== Proof.Acc.lean ====
/-
  The running minimum, point by point, and the block each last tile writes back.

  The grid has 8 points: point `t` works on batch block `t / 4` (16 batches) and window tile `t % 4` (512 windows). The
  running minimum is reset at the first tile of a batch block and updated at every tile, so after point `t` its entry
  for batch `p` of the block and shapelet `j` is the smallest distance over the windows seen so far — the first
  `(t % 4 + 1) · 512` windows of batch `16 · (t / 4) + p`. That is stated by lower bounds (`seen_iff`), which compose
  tile by tile without ever re-ordering a fold, and proved by induction on the point. At a last tile all 2048 windows
  have been seen: the running minimum is `minDist`, and the block the point writes back is `score` there.
-/
import proofs.«109583_j66073776882276_1_alg».proof.Proof.Gen.KernelIdeal.Value
import proofs.«109583_j66073776882276_1_alg».proof.Proof.Pieces
import proofs.«109583_j66073776882276_1_alg».proof.Proof.Tile

set_option maxRecDepth 16384

noncomputable section

namespace Cert.Shapelet.Acc

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)
open Finset BigOperators

variable (m : (ℓ : Loc nD τ sig) → Buf (Elt Ideal) ℓ)

/-- The four argument arrays as the region finds them, -/
abbrev xarr (c : Dev nD) : Series := V m c main_arg0
abbrev sarr (c : Dev nD) : Book := V m c main_arg1
abbrev warr (c : Dev nD) : Weights := V m c main_arg2
abbrev barr (c : Dev nD) : Bias := V m c main_arg3
/-- and their blocks at a point. -/
abbrev xblk (c : Dev nD) (t : Fin cfg0.N) : S16x512x32.Idx → EReal := iblk m c 0 t
abbrev sblk (c : Dev nD) (t : Fin cfg0.N) : S64x32.Idx → EReal := iblk m c 1 t
abbrev wblk (c : Dev nD) (t : Fin cfg0.N) : S64x10.Idx → EReal := iblk m c 2 t
abbrev bblk (c : Dev nD) (t : Fin cfg0.N) : S10.Idx → EReal := iblk m c 3 t

/-- The printed index maps over the grid: the series' block is (t / 4, t % 4, 0), the output's (t / 4, 0), the
    small operands' all zero. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val / 4 ∧ win0_4.index t (1 : Fin 2) = 0 :=
  (by decide +kernel : ∀ t : Fin grid0.N, _)

/-- The series' block at point `t`: batch `p`, window `r` of the block is batch `16·(t/4) + p`, window `512·(t%4) + r`. -/
theorem xblk_apply (c : Dev nD) (t : Fin cfg0.N) (p : Fin 16) (r : Fin 512) (l : Fin 32) (b : Fin 32) (w : Fin 2048)
    (hb : b.val = 16 * (t.val / 4) + p.val) (hw : w.val = 512 * (t.val % 4) + r.val) :
    xblk m c t (ix3 p r l) = xarr m c (ix3 b w l) := by
  obtain ⟨e0, e1, e2, -⟩ := idx_facts t
  show V m c main_arg0 (((cfg0.win 0).blk t).view.emb (ix3 p r l)) = V m c main_arg0 (ix3 b w l)
  refine congrArg _ (funext fun a => Fin.ext ?_)
  match a with
  | ⟨0, _⟩ => show win0_0.index t (0 : Fin 3) * 16 + 1 * p.val = b.val; omega
  | ⟨1, _⟩ => show win0_0.index t (1 : Fin 3) * 512 + 1 * r.val = w.val; omega
  | ⟨2, _⟩ => show win0_0.index t (2 : Fin 3) * 32 + 1 * l.val = l.val; omega

/-- The shapelets' block is the shapelets. -/
theorem sblk_apply (c : Dev nD) (t : Fin cfg0.N) (j : Fin 64) (l : Fin 32) :
    sblk m c t (ix2 j l) = sarr m c (ix2 j l) := by
  obtain ⟨-, -, -, e0, e1, -⟩ := idx_facts t
  show V m c main_arg1 (((cfg0.win 1).blk t).view.emb (ix2 j l)) = V m c main_arg1 (ix2 j l)
  refine congrArg _ (funext fun a => Fin.ext ?_)
  match a with
  | ⟨0, _⟩ => show win0_1.index t (0 : Fin 2) * 64 + 1 * j.val = j.val; omega
  | ⟨1, _⟩ => show win0_1.index t (1 : Fin 2) * 32 + 1 * l.val = l.val; omega

/-- The weights' block is the weights. -/
theorem wblk_apply (c : Dev nD) (t : Fin cfg0.N) (k : Fin 64) (o : Fin 10) :
    wblk m c t (ix2 k o) = warr m c (ix2 k o) := by
  obtain ⟨-, -, -, -, -, e0, e1, -⟩ := idx_facts t
  show V m c main_arg2 (((cfg0.win 2).blk t).view.emb (ix2 k o)) = V m c main_arg2 (ix2 k o)
  refine congrArg _ (funext fun a => Fin.ext ?_)
  match a with
  | ⟨0, _⟩ => show win0_2.index t (0 : Fin 2) * 64 + 1 * k.val = k.val; omega
  | ⟨1, _⟩ => show win0_2.index t (1 : Fin 2) * 10 + 1 * o.val = o.val; omega

/-- The bias' block is the bias. -/
theorem bblk_apply (c : Dev nD) (t : Fin cfg0.N) (o : Fin 10) :
    bblk m c t (ix1 o) = barr m c (ix1 o) := by
  obtain ⟨-, -, -, -, -, -, -, e0, -⟩ := idx_facts t
  show V m c main_arg3 (((cfg0.win 3).blk t).view.emb (ix1 o)) = V m c main_arg3 (ix1 o)
  refine congrArg _ (funext fun a => Fin.ext ?_)
  match a with
  | ⟨0, _⟩ => show win0_3.index t (0 : Fin 1) * 10 + 1 * o.val = o.val; omega

/-! ## What a point leaves in the running minimum -/

/-- At a FIRST tile: the update of the `+∞` block. -/
theorem runMin_reset (c : Dev nD) (t : Fin cfg0.N) (h0 : t.val % 4 = 0) :
    (outsAt0 m c t.val t.isLt).2 = k0_pay2 (F := Ideal) (iblk m c 0 t) (iblk m c 1 t) (k0_pay1 (F := Ideal)) := by
  have h1 : ¬t.val % 4 = 3 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At any LATER tile: the update of what the point before left. -/
theorem runMin_update (c : Dev nD) (t : Fin cfg0.N) (h0 : ¬t.val % 4 = 0) :
    (outsAt0 m c t.val t.isLt).2 = k0_pay2 (F := Ideal) (iblk m c 0 t) (iblk m c 1 t)
      (outsAt0 m c (t.val - 1) (Nat.lt_of_le_of_lt (Nat.sub_le _ _) t.isLt)).2 := by
  by_cases h1 : t.val % 4 = 3
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a LAST tile the output block is the classifier of the running minimum the point leaves. -/
theorem out_last (c : Dev nD) (t : Fin cfg0.N) (h1 : t.val % 4 = 3) :
    (outsAt0 m c t.val t.isLt).1 = k0_pay3 (F := Ideal) (outsAt0 m c t.val t.isLt).2 (iblk m c 2 t) (iblk m c 3 t) := by
  have h0 : ¬t.val % 4 = 0 := by omega
  rw [runMin_update m c t h0, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The lower bounds of an update, and the invariant -/

/-- The lower bounds of an update at point `t`: below the old value and below the distance of every window of tile
    `t % 4` of batch `b = 16·(t/4) + p`. -/
theorem le_update_iff (c : Dev nD) (hx : RealValued (xarr m c)) (hs : RealValued (sarr m c)) (t : Fin cfg0.N)
    (old : S16x64.Idx → EReal) (p : Fin 16) (j : Fin 64) (b : Fin 32) (hb : b.val = 16 * (t.val / 4) + p.val) (c' : EReal) :
    c' ≤ k0_pay2 (F := Ideal) (xblk m c t) (sblk m c t) old (ix2 p j)
      ↔ c' ≤ old (ix2 p j)
        ∧ ∀ (r : Fin 512) (w : Fin 2048), w.val = 512 * (t.val % 4) + r.val → c' ≤ dist (xarr m c) (sarr m c) b w j := by
  rw [Pay.update_apply, le_min_iff, le_tileMin_iff]
  have hd : ∀ (r : Fin 512) (w : Fin 2048), w.val = 512 * (t.val % 4) + r.val →
      Ideal.sqrt (Pay.tileSq (xblk m c t) (sblk m c t) p r j) = dist (xarr m c) (sarr m c) b w j := fun r w hw =>
    tile_dist (xarr m c) (sarr m c) hx hs (xblk m c t) (sblk m c t) b w p r j
      (fun l => xblk_apply m c t p r l b w hb hw) (fun l => sblk_apply m c t j l)
  refine and_congr_right fun _ => ⟨fun h r w hw => (hd r w hw) ▸ h r, fun h r => ?_⟩
  have hr := r.isLt
  have hm : t.val % 4 < 4 := Nat.mod_lt _ (by decide)
  have hw : (⟨512 * (t.val % 4) + r.val, by omega⟩ : Fin 2048).val = 512 * (t.val % 4) + r.val := rfl
  rw [hd r _ hw]
  exact h r _ hw

/-- The `+∞` block has every extended real below it. -/
theorem le_reset (p : Fin 16) (j : Fin 64) (c' : EReal) : c' ≤ k0_pay1 (F := Ideal) (ix2 p j) := by
  show c' ≤ Ideal.ofBits .f32 0x7F800000#32
  rw [ofBits_pos_inf]
  exact le_top

/-- THE INVARIANT. After point `n` the running minimum's entry for batch `p` of the block and shapelet `j` has exactly
    the lower bounds of the distances of the first `(n % 4 + 1) · 512` windows of batch `b = 16·(n/4) + p`. -/
theorem seen_iff (c : Dev nD) (hx : RealValued (xarr m c)) (hs : RealValued (sarr m c)) :
    ∀ (n : ℕ) (h : n < cfg0.N) (p : Fin 16) (j : Fin 64) (b : Fin 32) (hb : b.val = 16 * (n / 4) + p.val) (c' : EReal),
      c' ≤ (outsAt0 m c n h).2 (ix2 p j)
        ↔ ∀ w : Fin 2048, w.val < (n % 4 + 1) * 512 → c' ≤ dist (xarr m c) (sarr m c) b w j := by
  intro n
  induction n with
  | zero =>
    intro h p j b hb c'
    rw [runMin_reset m c ⟨0, h⟩ rfl, le_update_iff m c hx hs ⟨0, h⟩ _ p j b hb c', forall_window_succ]
    exact and_congr ⟨fun _ => forall_window_zero _, fun _ => le_reset p j c'⟩ Iff.rfl
  | succ n ih =>
    intro h p j b hb c'
    by_cases h0 : (n + 1) % 4 = 0
    · rw [runMin_reset m c ⟨n + 1, h⟩ h0, le_update_iff m c hx hs ⟨n + 1, h⟩ _ p j b hb c']
      show _ ↔ ∀ w : Fin 2048, w.val < ((n + 1) % 4 + 1) * 512 → _
      rw [h0, forall_window_succ]
      exact and_congr ⟨fun _ => forall_window_zero _, fun _ => le_reset p j c'⟩ Iff.rfl
    · rw [runMin_update m c ⟨n + 1, h⟩ h0, le_update_iff m c hx hs ⟨n + 1, h⟩ _ p j b hb c']
      have hdiv : (n + 1) / 4 = n / 4 := by omega
      have hmod : (n + 1) % 4 = n % 4 + 1 := by omega
      have hb' : b.val = 16 * (n / 4) + p.val := by rw [← hdiv]; exact hb
      show _ ∧ _ ↔ ∀ w : Fin 2048, w.val < ((n + 1) % 4 + 1) * 512 → _
      rw [forall_window_succ]
      refine and_congr ?_ Iff.rfl
      have := ih (Nat.lt_of_succ_lt h) p j b hb' c'
      show c' ≤ (outsAt0 m c (n + 1 - 1) _).2 (ix2 p j) ↔ _
      simp only [Nat.add_sub_cancel]
      rw [this, hmod]

/-- AT A LAST TILE the running minimum is the smallest distance over all 2048 windows. -/
theorem runMin_last (c : Dev nD) (hx : RealValued (xarr m c)) (hs : RealValued (sarr m c)) (t : Fin cfg0.N) (h1 : t.val % 4 = 3)
    (p : Fin 16) (j : Fin 64) (b : Fin 32) (hb : b.val = 16 * (t.val / 4) + p.val) :
    (outsAt0 m c t.val t.isLt).2 (ix2 p j) = minDist (xarr m c) (sarr m c) b j := by
  refine eq_of_lower_bounds fun c' => ?_
  rw [seen_iff m c hx hs t.val t.isLt p j b hb c', le_minDist_iff, h1]
  exact ⟨fun h w => h w w.isLt, fun h w _ => h w⟩

end Cert.Shapelet.Acc

end
-- ==== Proof.Final.lean ====
/-
  From the blocks the last tiles write back to the whole result array.

  The output is written back only at the last tile of each batch block (points 3 and 7): the block of 16 batches ×
  10 classes is `score` read through the block, because the running minimum there is `minDist` of the block's
  batches and the classifier's operands are the whole weight and bias arrays. The two blocks tile the 32 × 10 result,
  so after the run the result array is `score` of the four argument arrays.
-/
import proofs.«109583_j66073776882276_1_alg».proof.Proof.Acc

set_option maxRecDepth 16384

noncomputable section

namespace Cert.Shapelet.Final

open Cert.KernelIdeal Cert.KernelIdeal.Gen Cert.KernelIdeal.Value Cert.Shapelet.Acc
open Idealize.ShloMosaic Idealize.ShloMosaic.ValueIdx Idealize.ShloMosaic.TcCoe Idealize.SL.Sem
open Idealize.ShloMosaic.Pipeline (Dat)
open Finset BigOperators

variable (m : (ℓ : Loc nD τ sig) → Buf (Elt Ideal) ℓ) (ρ : Dev nD → PrngReg)

/-- The result: `score` of the four argument arrays as the region finds them. -/
abbrev result (c : Dev nD) : (⟨2, ![32, 10]⟩ : Shape).Idx → EReal :=
  score (xarr m c) (sarr m c) (warr m c) (barr m c)

/-- At a last tile, batch `p` of the block and class `o`: the classifier of the running minimum is `score` at batch
    `b = 16·(t/4) + p`. -/
theorem block_value (c : Dev nD) (hx : RealValued (xarr m c)) (hs : RealValued (sarr m c)) (t : Fin cfg0.N)
    (h1 : t.val % 4 = 3) (p : Fin 16) (o : Fin 10) (b : Fin 32) (hb : b.val = 16 * (t.val / 4) + p.val) :
    k0_pay3 (F := Ideal) (outsAt0 m c t.val t.isLt).2 (wblk m c t) (bblk m c t) (ix2 p o) = result m c (ix2 b o) := by
  rw [Pay.classify_apply]
  show Ideal.logistic _ = Ideal.logistic ((∑ k : Fin 64, minDist (xarr m c) (sarr m c) b k * warr m c (ix2 k o)) + barr m c (ix1 o))
  refine congrArg Ideal.logistic (congrArg₂ (· + ·) (Finset.sum_congr rfl fun k _ => ?_) (bblk_apply m c t o))
  rw [runMin_last m c hx hs t h1 p k b hb, wblk_apply]

/-- WHAT A LAST TILE WRITES BACK is its block of `score`. -/
theorem flushed_eq (c : Dev nD) (hx : RealValued (xarr m c)) (hs : RealValued (sarr m c)) (t : Fin cfg0.N)
    (hf : (cfg0.win 4).flush t = true) :
    (dats m 0 c).flushed 4 t = ((cfg0.win 4).blk t).view.read (Elt Ideal) (result m c) := by
  have h1 : t.val % 4 = 3 := (flush0_4 t).mp hf
  obtain ⟨-, -, -, -, -, -, -, -, e0, e1⟩ := idx_facts t
  have hN : t.val < 8 := lt_of_lt_of_eq t.isLt (show cfg0.N = 8 from N_0)
  rw [flushed4, out_last m c t h1]
  funext y
  have hy0 : (y 0).val < 16 := (y 0).isLt
  have hy1 : (y 1).val < 10 := (y 1).isLt
  show k0_pay3 (F := Ideal) (outsAt0 m c t.val t.isLt).2 (wblk m c t) (bblk m c t) y
      = result m c (((cfg0.win 4).blk t).view.emb y)
  have hy : y = ix2 (⟨(y 0).val, hy0⟩ : Fin 16) (⟨(y 1).val, hy1⟩ : Fin 10) :=
    funext fun a => Fin.ext (by match a with | ⟨0, _⟩ => rfl | ⟨1, _⟩ => rfl)
  have hb : (⟨16 * (t.val / 4) + (y 0).val, by omega⟩ : Fin 32).val = 16 * (t.val / 4) + (⟨(y 0).val, hy0⟩ : Fin 16).val := rfl
  refine ((congrArg _ hy).trans (block_value m c hx hs t h1 _ _ _ hb)).trans (congrArg _ (funext fun a => Fin.ext ?_))
  match a with
  | ⟨0, _⟩ => show 16 * (t.val / 4) + (y 0).val = win0_4.index t (0 : Fin 2) * 16 + 1 * (y 0).val; omega
  | ⟨1, _⟩ => show (y 1).val = win0_4.index t (1 : Fin 2) * 10 + 1 * (y 1).val; omega

/-- An index of the result is in point `t`'s block exactly when each coordinate is in the block's range. -/
theorem mem_blk (t : Fin cfg0.N) (i : S32x10.Idx) :
    i ∈ ((cfg0.win 4).blk t).view.set ↔ ∀ a : Fin 2, win0_4.index t a * S16x10.size a ≤ (i a).val ∧ (i a).val < win0_4.index t a * S16x10.size a + S16x10.size a := by
  show i ∈ ((View.whole main_v0).slice (win0_4.rect t)).set ↔ _
  rw [View.set_slice_whole, Rect.mem_set_unit]
  exact Iff.rfl

/-- Every index of the result is in the block of the last tile of its batch block. -/
theorem cover (i : S32x10.Idx) :
    ∃ t : Fin cfg0.N, (cfg0.win 4).flush t = true ∧ i ∈ ((cfg0.win 4).blk t).view.set := by
  have hi0 : (i 0).val < 32 := (i 0).isLt
  have hi1 : (i 1).val < 10 := (i 1).isLt
  have hN : cfg0.N = 8 := N_0
  have ht : 4 * ((i 0).val / 16) + 3 < cfg0.N := by rw [hN]; omega
  obtain ⟨-, -, -, -, -, -, -, -, e0, e1⟩ := idx_facts ⟨4 * ((i 0).val / 16) + 3, ht⟩
  refine ⟨⟨4 * ((i 0).val / 16) + 3, ht⟩, (flush0_4 _).mpr (by show (4 * ((i 0).val / 16) + 3) % 4 = 3; omega), ?_⟩
  rw [mem_blk]
  intro a
  match a with
  | ⟨0, _⟩ =>
    show win0_4.index ⟨4 * ((i 0).val / 16) + 3, ht⟩ (0 : Fin 2) * 16 ≤ (i 0).val ∧ (i 0).val < win0_4.index ⟨4 * ((i 0).val / 16) + 3, ht⟩ (0 : Fin 2) * 16 + 16
    rw [e0]; dsimp only; omega
  | ⟨1, _⟩ =>
    show win0_4.index ⟨4 * ((i 0).val / 16) + 3, ht⟩ (1 : Fin 2) * 10 ≤ (i 1).val ∧ (i 1).val < win0_4.index ⟨4 * ((i 0).val / 16) + 3, ht⟩ (1 : Fin 2) * 10 + 10
    rw [e1]; omega

/-- THE RESULT ARRAY after the run is `score` of the argument arrays. -/
theorem final (c : Dev nD) (hx : RealValued (xarr m c)) (hs : RealValued (sarr m c)) :
    (dats m 0 c).arrAt 4 cfg0.N = result m c :=
  (dats m 0 c).arrAt_eq_of_cover 4 (result m c) (fun t hf => flushed_eq m c hx hs t hf) (cover)

/-- The kernel's run, read: the result array at `score` of the launch contents, the arguments unchanged. -/
theorem run (hx : ∀ c, RealValued (xarr m c)) (hs : ∀ c, RealValued (sarr m c)) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hx c) (hs c)), (h c).2⟩) (run_blocks m ρ)

end Cert.Shapelet.Final

end
-- ==== Proof.RefValue.lean ====
/-
  The reference computes `score`.

  Its program forms the differences `x[b, w, ·] - s[j, ·]` for every batch, window and shapelet, their magnitudes,
  the squares, the sum over the samples and its square root — `dist` —, takes the minimum over the windows —
  `minDist` —, multiplies by the classifier's weights, adds the bias, and spells the logistic function as
  `1 / (1 + e^(-z))`. Read at an index, one operation at a time, that is `score`'s own definition; the ideal logistic
  function is by definition that quotient.
-/
import proofs.«109583_j66073776882276_1_alg».proof.Proof.Gen.ReferenceIdeal.Read
import proofs.«109583_j66073776882276_1_alg».proof.Proof.Spec
import proofs.«109583_j66073776882276_1_alg».proof.Proof.Algebra
import Idealize.ShloMosaic.PureOps.Reduce

noncomputable section

namespace Cert.Shapelet.Ref

open Cert.ReferenceIdeal Cert.ReferenceIdeal.Gen Cert.ReferenceIdeal.Read
open Idealize.ShloMosaic Idealize.ShloMosaic.ValueIdx
open Finset BigOperators

/-- The square root of the sum of squared magnitudes, at batch `b`, window `w`, shapelet `j`, is `dist`. -/
theorem stage_dist (x : Series) (s : Book) (b : Fin 32) (w : Fin 2048) (j : Fin 64) :
    val_main_v8 (F := Ideal) x s (ix3 b w j) = dist x s b w j := by
  have e0 : ∀ k : Fin 32, idx_main_v0 (idx_main_v2 (idx_main_v7 (ix3 b w j) k)) = ix3 b w k := fun k =>
    funext fun a => Fin.ext (by match a with | ⟨0, _⟩ => rfl | ⟨1, _⟩ => rfl | ⟨2, _⟩ => rfl)
  have e1 : ∀ k : Fin 32, idx_main_v1 (idx_main_v3 (idx_main_v7 (ix3 b w j) k)) = ix2 j k := fun k =>
    funext fun a => Fin.ext (by match a with | ⟨0, _⟩ => rfl | ⟨1, _⟩ => rfl)
  rw [val_main_v8_apply, val_main_v7_apply]
  simp only [val_main_v6_apply, val_main_v5_apply, val_main_v4_apply, val_main_v2_apply, val_main_v0_apply,
    val_main_v3_apply, val_main_v1_apply, val_main_cst_apply, e0, e1, Ideal.hostUnary_sqrt_def, Ideal.hostAbsf_def,
    Ideal.absf_def, Ideal.mulf_def, Ideal.subf_def, Ideal.ofBits_def, Ideal.ofBits_zero_f32, zero_add]
  rfl

/-- The minimum over the windows, at batch `b` and shapelet `j`, is `minDist`. -/
theorem stage_minDist (x : Series) (s : Book) (b : Fin 32) (j : Fin 64) :
    val_main_v9 (F := Ideal) x s (ix2 b j) = minDist x s b j := by
  unfold val_main_v9
  rw [Host.reduce_eq_fold_single FloatOps.minimumf _ _ reducesTo_S32x2048x64_S32x64_d1 (by decide) h_S_]
  have hf : (val_main_v8 (F := Ideal) x s ∘ (show S32x2048x64.Reduces [1] S32x64 by decide).lift (ix2 b j))
      = fun w : Fin 2048 => dist x s b w j := funext fun w => by
    refine Eq.trans (congrArg (val_main_v8 (F := Ideal) x s) ?_) (stage_dist x s b w j)
    exact funext fun a => Fin.ext (by match a with | ⟨0, _⟩ => rfl | ⟨1, _⟩ => rfl | ⟨2, _⟩ => rfl)
  unfold minDist
  rw [hf]
  show Finset.fold min (Ideal.ofBits .f32 0x7F800000#32) _ _ = _
  rw [ofBits_pos_inf]
  rfl

/-- THE REFERENCE'S RESULT is `score` of the four arguments. -/
theorem result_eq (x : Series) (s : Book) (cw : Weights) (cb : Bias) :
    val_main_v19 (F := Ideal) x s cw cb = score x s cw cb := by
  funext i
  obtain ⟨b, o, rfl⟩ : ∃ (b : Fin 32) (o : Fin 10), i = ix2 b o := ⟨i 0, i 1, eq_ix2 i⟩
  have el : ∀ k : Fin 64, lidx_main_v10 (ix2 b o) k = ix2 b k := fun k =>
    funext fun a => Fin.ext (by match a with | ⟨0, _⟩ => rfl | ⟨1, _⟩ => rfl)
  have er : ∀ k : Fin 64, ridx_main_v10 (ix2 b o) k = ix2 k o := fun k =>
    funext fun a => Fin.ext (by match a with | ⟨0, _⟩ => rfl | ⟨1, _⟩ => rfl)
  have eb : idx_main_v11 (idx_main_v12 (ix2 b o)) = ix1 o :=
    funext fun a => Fin.ext (by match a with | ⟨0, _⟩ => rfl)
  rw [val_main_v19_apply, val_main_v18_apply, val_main_cst_2_apply, val_main_v17_apply, val_main_v16_apply,
    val_main_cst_1_apply, val_main_v15_apply, val_main_v14_apply, val_main_v13_apply, val_main_v12_apply,
    val_main_v11_apply, val_main_v10_apply]
  simp only [el, er, eb, stage_minDist, Ideal.hostDivf_def, Ideal.addf_def, Ideal.hostUnary_exp_def,
    Ideal.hostNegf_def, Ideal.negf_def, Ideal.ofBits_def]
  unfold score logit Ideal.logistic
  rw [Cert.LibCoe.ofBits_one, EReal.coe_one]

end Cert.Shapelet.Ref

end
-- ==== Proof.Finite.lean ====
/-
  From the precondition to real entries.

  The precondition says, of each of the four argument arrays, that every entry's magnitude is below `+∞`: a
  conjunction of four "for all entries" tests. An extended real whose magnitude is below `⊤` is neither `⊤` nor `⊥`:
  it is (the coercion of) a real number.
-/
import proofs.«109583_j66073776882276_1_alg».proof.Pre_finite_inputs
import proofs.«109583_j66073776882276_1_alg».proof.Proof.Gen.Pre_finite_inputs
import proofs.«109583_j66073776882276_1_alg».proof.Proof.Tile
import Idealize.ShloMosaic.Lib.ReduceAll
import Idealize.ShloMosaic.Lib.Affine

noncomputable section

namespace Cert.Shapelet

open Idealize.ShloMosaic

/-- The rank-0 shape has one index. -/
instance : Subsingleton Cert.Pre_finite_inputs.S_.Idx := ⟨fun a b => funext fun d => d.elim0⟩

/-- An extended real whose magnitude compares below `+∞` is a real number. -/
theorem real_of_mag_lt_top (a : EReal)
    (h : Ideal.cmp .olt (max a (-a)) (Ideal.ofBits .f32 0x7F800000#32) = 1#1) : ∃ r : ℝ, a = (r : EReal) := by
  rw [ofBits_pos_inf] at h
  induction a using EReal.rec with
  | bot => simp [Ideal.cmp] at h
  | coe r => exact ⟨r, rfl⟩
  | top => simp [Ideal.cmp] at h

/-- THE PRECONDITION gives: all four argument arrays are real-valued. -/
theorem realValued_of_pre (x0 : FVec Ideal Cert.Pre_finite_inputs.S32x2048x32 .f32) (x1 : FVec Ideal Cert.Pre_finite_inputs.S64x32 .f32)
    (x2 : FVec Ideal Cert.Pre_finite_inputs.S64x10 .f32) (x3 : FVec Ideal Cert.Pre_finite_inputs.S10 .f32)
    (h : Cert.Pre_finite_inputs.fn (F := Ideal) x0 x1 x2 x3 = fun _ => 1#1) :
    RealValued x0 ∧ RealValued x1 ∧ RealValued x2 ∧ RealValued x3 := by
  have h' := congrFun h ValueIdx.ix0
  dsimp only [Cert.Pre_finite_inputs.fn, Cert.Pre_finite_inputs.fn_part1] at h'
  simp only [andi, IntOp.andi_eq_one] at h'
  obtain ⟨⟨⟨h0, h1⟩, h2⟩, h3⟩ := h'
  exact ⟨fun i => real_of_mag_lt_top _ (Host.reduce_andi_all _ _ _ _ _ h0 i),
    fun i => real_of_mag_lt_top _ (Host.reduce_andi_all _ _ _ _ _ h1 i),
    fun i => real_of_mag_lt_top _ (Host.reduce_andi_all _ _ _ _ _ h2 i),
    fun i => real_of_mag_lt_top _ (Host.reduce_andi_all _ _ _ _ _ h3 i)⟩

end Cert.Shapelet

end
-- ==== Proof.lean ====
/-
  The certificate of the shapelet classifier: a kernel that streams the series tile by tile, against a reference
  that materialises every difference.

  BOTH PROGRAMS compute, for 32 batches and 10 classes, the logistic function of a linear layer over 64 features,
  the feature of batch `b` for shapelet `j` being the smallest Euclidean distance of `s[j, ·]` to any of the 2048
  windows `x[b, w, ·]` (`Cert.Shapelet.score`, Proof/Spec.lean).

  THE REFERENCE forms `|x - s|`, squares, sums over the 32 samples, takes the square root, the minimum over the
  windows, the matrix product with the weights plus the bias, and `1 / (1 + e^(-z))`: read one operation at a time
  that is `score`'s definition (Proof/RefValue.lean, over the generated run and its read-at-an-index lemmas).

  THE KERNEL never forms a difference. On a grid of 2 batch blocks × 4 window tiles it computes the expanded square
  `Σ x² - 2·Σ x·s + Σ s²` (the cross term a matrix product), clamps it at zero, takes the square root and the minimum
  over the tile's 512 windows, and keeps a running minimum across the four tiles in a scratch buffer, reset to `+∞` at
  the first tile; at the last tile it applies the classifier to the running minimum and writes the block back. The
  three facts that make this `score`:
    * over REAL entries `Σ x² - 2·Σ x·s + Σ s² = Σ (x - s)²  ≥ 0`, so the clamp does nothing and the kernel's distance is
      the reference's (Proof/Algebra.lean, Proof/Tile.lean) — this is where the precondition, every input finite, is
      used (Proof/Finite.lean): at an infinite entry the expanded square is `⊤ - ⊤`;
    * a minimum taken tile by tile is the minimum over all windows: after point `t` the running minimum has exactly the
      lower bounds of the distances of the windows seen so far, by induction on the point (Proof/Acc.lean);
    * the kernel's logistic function is by definition the quotient the reference spells, and a change of float
      format is the identity on the extended reals, so the narrowed matrix products are the plain sums
      (Proof/Payload.lean).
  The two blocks written back tile the result (Proof/Final.lean).

  The frames of the two kernel programs are the generated ones; the reference's is its generated run with the result
  dropped; the ideal pass rewrote nothing, so the kernel is its own idealization.
-/
import proofs.«109583_j66073776882276_1_alg».proof.Defs
import proofs.«109583_j66073776882276_1_alg».proof.Proof.Gen.Kernel
import proofs.«109583_j66073776882276_1_alg».proof.Proof.Gen.Kernel.Skeleton
import proofs.«109583_j66073776882276_1_alg».proof.Proof.Gen.Kernel.Launch
import proofs.«109583_j66073776882276_1_alg».proof.Proof.Gen.Kernel.Points
import proofs.«109583_j66073776882276_1_alg».proof.Proof.Gen.Kernel.Frame
import proofs.«109583_j66073776882276_1_alg».proof.Proof.Gen.KernelIdeal
import proofs.«109583_j66073776882276_1_alg».proof.Proof.Gen.KernelIdeal.Skeleton
import proofs.«109583_j66073776882276_1_alg».proof.Proof.Gen.KernelIdeal.Launch
import proofs.«109583_j66073776882276_1_alg».proof.Proof.Gen.KernelIdeal.Points
import proofs.«109583_j66073776882276_1_alg».proof.Proof.Gen.KernelIdeal.Frame
import proofs.«109583_j66073776882276_1_alg».proof.Proof.Gen.ReferenceIdeal
import proofs.«109583_j66073776882276_1_alg».proof.Proof.Gen.Pre_finite_inputs
import proofs.«109583_j66073776882276_1_alg».proof.Proof.Gen.KernelIdeal.Value
import proofs.«109583_j66073776882276_1_alg».proof.Proof.Gen.ReferenceIdeal.Run
import proofs.«109583_j66073776882276_1_alg».proof.Proof.Gen.ReferenceIdeal.Read
import proofs.«109583_j66073776882276_1_alg».proof.Proof.Final
import proofs.«109583_j66073776882276_1_alg».proof.Proof.RefValue
import proofs.«109583_j66073776882276_1_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on finite arguments both programs end with `score` of those arguments in their result. -/
theorem algebraic : Cert.algebraic_KernelIdeal_ReferenceIdeal := by
  intro m ρ m' ρ' hpre hagree
  have hfin := fun c => Cert.Shapelet.realValued_of_pre _ _ _ _ (hpre c)
  refine ⟨fun c => Cert.Shapelet.Final.result m c,
    Cert.Shapelet.Final.run m ρ (fun c => (hfin c).1) (fun c => (hfin c).2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Shapelet.Ref.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
